-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x2048x4096, .f32⟩
  | .hbm, ⟨4, _⟩ => ⟨S1x1x4096, .f32⟩
  | .hbm, ⟨5, _⟩ => ⟨S8x2048x4096, .f32⟩
  | .hbm, ⟨6, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pieces.lean ====
/-
  What one grid step leaves behind, as values.

  The kernel keeps a running `[1024, 1024]` accumulator in a scratch buffer across the four steps that share an output
  block.  A step first clears the accumulator if it is the first of its four, then replaces the accumulator `acc` by
  `acc + x · aᵀ` for the step's blocks `x` (of the input) and `a` (of the weight), and, if it is the last of its four,
  writes `acc + bias` to the output block.

  The generated run of the body records each buffer's final contents as the list of rectangles the body stored, last
  first, each with the stored value.  Every store of this body covers its whole buffer, so the buffer ends at the value
  of the LAST store; a load that follows a store in the same step reads the stored value back.  The four lemmas below say
  this for the accumulator in each of the three kinds of step, and for the output block in the last kind:

    first step     : accumulator = step (cleared accumulator)          (`scratch_first`)
    middle step    : accumulator = step (accumulator before)           (`scratch_middle`)
    last step      : accumulator = step (accumulator before)           (`scratch_last`)
                     output      = (step (accumulator before)) + bias  (`out_last`)

  where `step acc = acc + x · aᵀ` is the payload `k0_pay2 x a acc`, the cleared accumulator is `k0_pay1`, and adding the
  bias row to every row is `k0_pay3`.  All four hold for any interpretation of the floating-point operations.
-/
import proofs.«143959_j49718541419169_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- A first step stores the cleared accumulator, reads it back, and leaves `cleared + x · aᵀ`. -/
theorem scratch_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- A middle step leaves `acc + x · aᵀ` over the accumulator `acc` it found. -/
theorem scratch_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .f32) (x2 : Vec F S1x1024 .f32) (acc : Vec F S1024x1024 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero origin]
  simp only [View.readAt_eq_ld, h3.read_unread, h4.read_unread, h7.read_unread, View.ld_unit_zero (S := S1024x1024) origin]

/-- A last step leaves the same in the accumulator … -/
theorem scratch_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (acc : Vec F S1024x1024 .f32) :
    sout0_C_0 c i a3 h3 a4 h4 a5 h5 a6 h6 a7 h7 hc0 hc1 x0 x1 x2 acc = k0_pay2 x0 x1 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h7.read_unread, View.ld_unit_zero (S := S1024x1024) origin]

/-- … and writes that accumulator, read back, plus the bias row, to the output block. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (acc : Vec F S1024x1024 .f32) :
    out0_C_3 c i a3 h3 a4 h4 a5 h5 a6 h6 a7 h7 hc0 hc1 x0 x1 x2 acc = k0_pay3 (k0_pay2 x0 x1 acc) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h5.read_unread, h7.read_unread,
    View.readCov_unit_zero (S := S1024x1024) _ origin, View.ld_unit_zero (S := S1024x1024) origin, View.ld_unit_zero (S := S1x1024) origin]

end Cert.KernelIdeal.Pieces

end
-- ==== Proof.Pay.lean ====
/-
  The body's three stored values, entry by entry, over the extended reals.

  With exact arithmetic a change of floating-point format is the identity, so the two casts to bf16 before the matrix
  product disappear, and the matrix unit's product into a zero accumulator is the plain sum of products.  Writing
  `x`, `a` for the step's two `[1024, 1024]` blocks, `acc` for the accumulator and `β` for the `[1, 1024]` bias block:

    cleared (p, q)        = 0
    step x a acc (p, q)   = acc (p, q) + ∑ kk < 1024, x (p, kk) · a (q, kk)       (both blocks are read along their rows:
                                                                                   the product is x · aᵀ)
    biased v β (p, q)     = v (p, q) + β (0, q)                                   (the bias row added to every row)
-/
import proofs.«143959_j49718541419169_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Pay

open Cert.KernelIdeal Cert.KernelIdeal.Gen

/-! The matrix product contracts axis 1 of both operands; its output axis 0 is the left operand's axis 0 and its
    output axis 1 is the right operand's axis 0. -/

theorem lhs_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- The cleared accumulator is zero everywhere. -/
theorem cleared_apply (p q : Fin 1024) : k0_pay1 (F := Ideal) (ix2 p q) = 0 := by
  unfold k0_pay1
  rw [shapeCast_self]
  exact Ideal.ofBits_zero_f32

/-- One step adds to the accumulator's entry `(p, q)` the inner product of row `p` of `x` and row `q` of `a`. -/
theorem step_apply (x a acc : Vec Ideal S1024x1024 .f32) (p q : Fin 1024) :
    k0_pay2 (F := Ideal) x a acc (ix2 p q) = acc (ix2 p q) + ∑ kk : Fin 1024, x (ix2 p kk) * a (ix2 q kk) := by
  unfold k0_pay2
  rw [shapeCast_self, shapeCast_self]
  show acc (ix2 p q) + FloatOps.matmul _ none _ _ (constant (F := Ideal) S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine congrArg (acc (ix2 p q) + ·) (Finset.sum_congr rfl fun k _ => ?_)
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun b => Fin.ext (by
    match b with
    | ⟨0, _⟩ => exact lhs_0 _ _
    | ⟨1, _⟩ => exact (lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun b => Fin.ext (by
    match b with
    | ⟨0, _⟩ => exact rhs_0 _ _
    | ⟨1, _⟩ => exact (rhs_1 _ _).trans hk)
  show x _ * a _ = _
  rw [el, er]

/-- The output entry `(p, q)` is the accumulator's plus the bias block's entry `(0, q)`. -/
theorem biased_apply (v : Vec Ideal S1024x1024 .f32) (β : Vec Ideal S1x1024 .f32) (p q : Fin 1024) :
    k0_pay3 (F := Ideal) v β (ix2 p q) = v (ix2 p q) + β (ix2 (0 : Fin 1) q) := by
  unfold k0_pay3
  rw [shapeCast_self]
  show v (ix2 p q) + broadcastTo S1024x1024 β _ (ix2 p q) = _
  rw [broadcastTo_apply β _ (ix2 p q) (ix2 (0 : Fin 1) q) (fun b => match b with
    | ⟨0, _⟩ => by show 0 = if (1 : Nat) = 1 then 0 else _; rw [if_pos rfl]
    | ⟨1, _⟩ => by show q.val = if (1024 : Nat) = 1 then 0 else q.val; rw [if_neg (by decide)])]

end Cert.KernelIdeal.Pay

end
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.Spec.lean ====
/-
  A linear layer read two ways.

  For `x : [8, 2048, 4096]`, `A : [4096, 4096]` and `b : [4096]` over the extended reals, the layer's value at
  `(β, s, o)` is the inner product of the row `x[β, s, ·]` with the row `A[o, ·]`, plus `b[o]`:

      lin3 x A b (β, s, o) = (∑ k < 4096, x[β, s, k] · A[o, k]) + b[o].

  Flattening the two leading axes of `x` (row `r = 2048 β + s` of a `[16384, 4096]` matrix `X`) and viewing `b` as a
  one-row matrix `B` gives the same numbers laid out as a `[16384, 4096]` matrix, `lin2 X A B`.

  An inner product over 4096 columns may be taken in four runs of 1024 columns each, the runs' partial inner products
  (`part`) added one after the other.  Over the extended reals this changes nothing: addition there is associative
  and commutative (no cancellation or distributivity is used, so no entry needs to be finite), and `sum_parts` is the
  regrouping of a sum over `4 · 1024` indices into four blocks.
-/
import Idealize.ShloMosaic.PureOps.Ideal
import Idealize.ShloMosaic.Lib.ValueIdx
import Idealize.ShloMosaic.Lib.Pipeline.Value
import Idealize.ShloMosaic.Lib.ValueLayout
import proofs.«143959_j49718541419169_1_alg».proof.Proof.LibBlockSum

noncomputable section

namespace Cert.Linear

open Idealize.ShloMosaic Idealize.ShloMosaic.ValueIdx Finset

abbrev SX3 : Shape := ⟨3, ![8, 2048, 4096]⟩
abbrev SX2 : Shape := ⟨2, ![16384, 4096]⟩
abbrev SA : Shape := ⟨2, ![4096, 4096]⟩
abbrev SB1 : Shape := ⟨1, ![4096]⟩
abbrev SB2 : Shape := ⟨2, ![1, 4096]⟩

/-- The layer on the flattened input: entry `(r, o)` is the inner product of row `r` of `X` and row `o` of `A`, plus
    the bias at `o`. -/
def lin2 (X : SX2.Idx → EReal) (A : SA.Idx → EReal) (B : SB2.Idx → EReal) : SX2.Idx → EReal :=
  fun j => (∑ k : Fin 4096, X (ix2 (j 0) k) * A (ix2 (j 1) k)) + B (ix2 (0 : Fin 1) (j 1))

/-- The layer itself: entry `(β, s, o)` is the inner product of `x[β, s, ·]` and `A[o, ·]`, plus `b[o]`. -/
def lin3 (x : SX3.Idx → EReal) (A : SA.Idx → EReal) (b : SB1.Idx → EReal) : SX3.Idx → EReal :=
  fun i => (∑ k : Fin 4096, x (ix3 (i 0) (i 1) k) * A (ix2 (i 2) k)) + b (ix1 (i 2))

/-! ## An array read at natural-number coordinates -/

/-- An `[R, C]` array read at natural-number coordinates; zero outside its extents (a value never used). -/
def at2 {R C : ℕ} (f : (⟨2, ![R, C]⟩ : Shape).Idx → EReal) (r c : ℕ) : EReal :=
  if h : r < R ∧ c < C then f (ix2 ⟨r, h.1⟩ ⟨c, h.2⟩) else 0

theorem at2_of_lt {R C : ℕ} (f : (⟨2, ![R, C]⟩ : Shape).Idx → EReal) (r c : ℕ) (hr : r < R) (hc : c < C) :
    at2 f r c = f (ix2 ⟨r, hr⟩ ⟨c, hc⟩) := dif_pos ⟨hr, hc⟩

/-! ## The inner product in four runs of columns -/

/-- The part of the inner product of row `r` of `X` and row `o` of `A` over the `l`-th run of 1024 columns. -/
def part (X : SX2.Idx → EReal) (A : SA.Idx → EReal) (r o l : ℕ) : EReal :=
  ∑ kk : Fin 1024, at2 X r (l * 1024 + kk.val) * at2 A o (l * 1024 + kk.val)

/-- The four parts together are the whole inner product. -/
theorem sum_parts (X : SX2.Idx → EReal) (A : SA.Idx → EReal) (r : Fin 16384) (o : Fin 4096) :
    ∑ l ∈ range 4, part X A r.val o.val l = ∑ k : Fin 4096, X (ix2 r k) * A (ix2 o k) := by
  rw [Cert.BlockSum.sum_blocks 4 1024 (by norm_num) (fun k : Fin 4096 => X (ix2 r k) * A (ix2 o k)),
    ← Fin.sum_univ_eq_sum_range (fun l => part X A r.val o.val l) 4]
  refine Fintype.sum_congr _ _ fun l => ?_
  unfold part
  refine Fintype.sum_congr _ _ fun kk => ?_
  have hl := l.isLt
  have hk := kk.isLt
  rw [at2_of_lt X _ _ r.isLt (by omega), at2_of_lt A _ _ o.isLt (by omega)]

/-! ## The flattening -/

/-- Row `2048 β + s` of the flattened input is the row `x[β, s, ·]`. -/
theorem flat_apply (x : SX3.Idx → EReal) (h : SX3.ShapeCasts SX2) (β : Fin 8) (s : Fin 2048) (k : Fin 4096)
    (r : Fin 16384) (hr : r.val = β.val * 2048 + s.val) :
    shapeCast SX2 x h (ix2 r k) = x (ix3 β s k) :=
  Idealize.ShloMosaic.shapeCast_apply x h _ _ (by
    rw [Shape.rowMajor_val_three, Shape.rowMajor_val_two]
    show (β.val * 2048 + s.val) * 4096 + k.val = r.val * 4096 + k.val
    rw [hr])

/-- Entry `(β, s, o)` of a `[16384, 4096]` matrix viewed as `[8, 2048, 4096]` is its entry `(2048 β + s, o)`. -/
theorem unflat_apply (y : SX2.Idx → EReal) (h : SX2.ShapeCasts SX3) (β : Fin 8) (s : Fin 2048) (o : Fin 4096)
    (r : Fin 16384) (hr : r.val = β.val * 2048 + s.val) :
    shapeCast SX3 y h (ix3 β s o) = y (ix2 r o) :=
  Idealize.ShloMosaic.shapeCast_apply y h _ _ (by
    rw [Shape.rowMajor_val_three, Shape.rowMajor_val_two]
    show r.val * 4096 + o.val = (β.val * 2048 + s.val) * 4096 + o.val
    rw [hr])

/-- The layer on the flattened input, viewed back as `[8, 2048, 4096]`, is the layer. -/
theorem unflat_lin2 (x : SX3.Idx → EReal) (A : SA.Idx → EReal) (b : SB1.Idx → EReal)
    (h1 : SX3.ShapeCasts SX2) (h2 : SB1.ShapeCasts SB2) (h3 : SX2.ShapeCasts SX3) :
    shapeCast SX3 (lin2 (shapeCast SX2 x h1) A (shapeCast SB2 b h2)) h3 = lin3 x A b := by
  funext i
  obtain ⟨β, s, o, rfl⟩ : ∃ (β : Fin 8) (s : Fin 2048) (o : Fin 4096), i = ix3 β s o := ⟨i 0, i 1, i 2, eq_ix3 i⟩
  have hβ := β.isLt
  have hs := s.isLt
  rw [unflat_apply _ h3 β s o ⟨β.val * 2048 + s.val, by omega⟩ rfl]
  unfold lin2 lin3
  congr 1
  · exact Fintype.sum_congr _ _ fun k => by
      rw [flat_apply x h1 β s k ⟨β.val * 2048 + s.val, by omega⟩ rfl]
  · exact shapeCast_a_1a_apply b h2 0 o

end Cert.Linear

end
-- ==== Proof.Acc.lean ====
/-
  The accumulator across the grid.

  The grid has 16 · 4 · 4 points; point number `t = 16 i + 4 j + k` works on row block `i` of the flattened input `X`
  (rows `1024 i …`), on row block `j` of the weight `A` (rows `1024 j …`, which are the output's columns), and on the
  `k`-th run of 1024 columns of both.  In terms of `t`: `i = t / 16`, `j = t / 4 % 4`, `k = t % 4` (`idx_facts`, decided
  over the 256 points).  So the blocks a step reads are (`xb_apply`, `ab_apply`, `bb_apply`)

      x-block (p, kk) = X (1024 i + p, 1024 k + kk),   a-block (q, kk) = A (1024 j + q, 1024 k + kk),
      bias-block (0, q) = B (0, 1024 j + q),

  and the sum of products a step adds at `(p, q)` is exactly the `k`-th part of the inner product of row `1024 i + p` of
  `X` with row `1024 j + q` of `A` (`step_part`).

  The four points `k = 0, 1, 2, 3` of one `(i, j)` are consecutive.  The first clears the accumulator and adds part 0;
  each later one adds its part to what the point before left (`first_eq`, `next_eq`).  By induction on the point's
  number the accumulator after point `t` is the sum of parts `0 … k` (`scratch_eq`): moving from `t - 1` to `t` within a
  group of four changes neither `i` nor `j` and raises `k` by one.  At `k = 3` the output block is written with the sum
  of all four parts plus the bias (`out_eq`).
-/
import proofs.«143959_j49718541419169_1_alg».proof.Proof.Gen.KernelIdeal.Frame
import proofs.«143959_j49718541419169_1_alg».proof.Proof.Pieces
import proofs.«143959_j49718541419169_1_alg».proof.Proof.Pay
import proofs.«143959_j49718541419169_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Linear Finset

variable (m : (ℓ : Loc nD τ sig) → Buf (Elt Ideal) ℓ)

/-- The three arrays the kernel's windows read, as the kernel finds them: the flattened input, the weight, the bias as a
    one-row matrix. -/
abbrev X (c : Dev nD) : SX2.Idx → EReal := V m c main_v0
abbrev A (c : Dev nD) : SA.Idx → EReal := V m c main_arg1
abbrev B (c : Dev nD) : SB2.Idx → EReal := V m c main_v1
/-- The blocks of the three arrays that point `t` works on. -/
abbrev xb (c : Dev nD) (t : Fin cfg0.N) : Vec Ideal S1024x1024 .f32 := iblk m c 0 t
abbrev ab (c : Dev nD) (t : Fin cfg0.N) : Vec Ideal S1024x1024 .f32 := iblk m c 1 t
abbrev bb (c : Dev nD) (t : Fin cfg0.N) : Vec Ideal S1x1024 .f32 := iblk m c 2 t

/-- Which block of each array point `t` works on. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The input block at point `t`, entry by entry. -/
theorem xb_apply (c : Dev nD) (t : Fin cfg0.N) (p kk : Fin 1024) :
    xb m c t (ix2 p kk) = at2 (X m c) (t.val / 16 * 1024 + p.val) (t.val % 4 * 1024 + kk.val) := by
  have hN : t.val < 256 := lt_of_lt_of_eq t.isLt (show cfg0.N = 256 from N_0)
  obtain ⟨e0, e1, -⟩ := idx_facts t
  have hp := p.isLt
  have hk := kk.isLt
  rw [at2_of_lt _ _ _ (by omega) (by omega)]
  unfold xb iblk
  rw [View.read_apply]
  show V m c main_v0 _ = V m c main_v0 _
  congr 1
  funext a
  apply Fin.ext
  match a with
  | ⟨0, _⟩ => show win0_0.index t (0 : Fin 2) * 1024 + 1 * p.val = t.val / 16 * 1024 + p.val; rw [e0]; omega
  | ⟨1, _⟩ => show win0_0.index t (1 : Fin 2) * 1024 + 1 * kk.val = t.val % 4 * 1024 + kk.val; rw [e1]; omega

/-- The weight block at point `t`, entry by entry. -/
theorem ab_apply (c : Dev nD) (t : Fin cfg0.N) (q kk : Fin 1024) :
    ab m c t (ix2 q kk) = at2 (A m c) (t.val / 4 % 4 * 1024 + q.val) (t.val % 4 * 1024 + kk.val) := by
  have hN : t.val < 256 := lt_of_lt_of_eq t.isLt (show cfg0.N = 256 from N_0)
  obtain ⟨-, -, e2, e3, -⟩ := idx_facts t
  have hq := q.isLt
  have hk := kk.isLt
  rw [at2_of_lt _ _ _ (by omega) (by omega)]
  unfold ab iblk
  rw [View.read_apply]
  show V m c main_arg1 _ = V m c main_arg1 _
  congr 1
  funext a
  apply Fin.ext
  match a with
  | ⟨0, _⟩ => show win0_1.index t (0 : Fin 2) * 1024 + 1 * q.val = t.val / 4 % 4 * 1024 + q.val; rw [e2]; omega
  | ⟨1, _⟩ => show win0_1.index t (1 : Fin 2) * 1024 + 1 * kk.val = t.val % 4 * 1024 + kk.val; rw [e3]; omega

/-- The bias block at point `t`, entry by entry. -/
theorem bb_apply (c : Dev nD) (t : Fin cfg0.N) (q : Fin 1024) :
    bb m c t (ix2 (0 : Fin 1) q) = at2 (B m c) 0 (t.val / 4 % 4 * 1024 + q.val) := by
  have hN : t.val < 256 := lt_of_lt_of_eq t.isLt (show cfg0.N = 256 from N_0)
  obtain ⟨-, -, -, -, e4, e5, -⟩ := idx_facts t
  have hq := q.isLt
  rw [at2_of_lt _ _ _ (by omega) (by omega)]
  unfold bb iblk
  rw [View.read_apply]
  show V m c main_v1 _ = V m c main_v1 _
  congr 1
  funext a
  apply Fin.ext
  match a with
  | ⟨0, _⟩ => show win0_2.index t (0 : Fin 2) * 1 + 1 * 0 = 0; rw [e4]
  | ⟨1, _⟩ => show win0_2.index t (1 : Fin 2) * 1024 + 1 * q.val = t.val / 4 % 4 * 1024 + q.val; rw [e5]; omega

/-- The sum of products point `t` adds at `(p, q)` is part `t % 4` of the inner product of row `1024 (t / 16) + p` of
    `X` and row `1024 (t / 4 % 4) + q` of `A`. -/
theorem step_part (c : Dev nD) (t : Fin cfg0.N) (p q : Fin 1024) :
    ∑ kk : Fin 1024, xb m c t (ix2 p kk) * ab m c t (ix2 q kk)
      = part (X m c) (A m c) (t.val / 16 * 1024 + p.val) (t.val / 4 % 4 * 1024 + q.val) (t.val % 4) := by
  unfold part
  exact Fintype.sum_congr _ _ fun kk => by rw [xb_apply, ab_apply]

/-- After a first step the accumulator holds that step's contribution. -/
theorem first_eq (c : Dev nD) (t : Fin cfg0.N) (h0 : t.val % 4 = 0) (p q : Fin 1024) :
    (outsAt0 m c t.val t.isLt).2 (ix2 p q)
      = part (X m c) (A m c) (t.val / 16 * 1024 + p.val) (t.val / 4 % 4 * 1024 + q.val) 0 := by
  have h1 : ¬t.val % 4 = 3 := by omega
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xb m c t) (ab m c t) (bb m c t)) (ix2 p q)).trans ?_
  refine (Pay.step_apply (xb m c t) (ab m c t) _ p q).trans ?_
  rw [Pay.cleared_apply, zero_add, step_part, h0]

/-- After any other step the accumulator holds what the step before left plus this step's contribution. -/
theorem next_eq (c : Dev nD) (t : Fin cfg0.N) (h0 : ¬t.val % 4 = 0) (p q : Fin 1024) :
    (outsAt0 m c t.val t.isLt).2 (ix2 p q)
      = (outsAt0 m c (t.val - 1) (Nat.lt_of_le_of_lt (Nat.sub_le _ _) t.isLt)).2 (ix2 p q)
        + part (X m c) (A m c) (t.val / 16 * 1024 + p.val) (t.val / 4 % 4 * 1024 + q.val) (t.val % 4) := by
  by_cases h1 : t.val % 4 = 3
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xb m c t) (ab m c t) (bb m c t) (outsAt0 m c (t.val - 1) (Nat.lt_of_le_of_lt (Nat.sub_le _ _) t.isLt)).2) (ix2 p q)).trans ?_
    refine (Pay.step_apply (xb m c t) (ab m c t) _ p q).trans ?_
    rw [step_part]
  · rw [outsAt0_B m c t h0 h1]
    dsimp only
    refine (congrFun (Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xb m c t) (ab m c t) (bb m c t) (outsAt0 m c (t.val - 1) (Nat.lt_of_le_of_lt (Nat.sub_le _ _) t.isLt)).2) (ix2 p q)).trans ?_
    refine (Pay.step_apply (xb m c t) (ab m c t) _ p q).trans ?_
    rw [step_part]

/-- The accumulator after point `n` holds the sum of the parts `0 … n % 4` of the inner products of its block's rows. -/
theorem scratch_eq (c : Dev nD) : ∀ (n : ℕ) (h : n < cfg0.N) (p q : Fin 1024),
    (outsAt0 m c n h).2 (ix2 p q)
      = ∑ l ∈ range (n % 4 + 1), part (X m c) (A m c) (n / 16 * 1024 + p.val) (n / 4 % 4 * 1024 + q.val) l
  | 0, h, p, q => by
    rw [first_eq m c ⟨0, h⟩ rfl p q]
    show _ = ∑ l ∈ range 1, _
    rw [sum_range_one]
  | n + 1, h, p, q => by
    by_cases h0 : (n + 1) % 4 = 0
    · rw [first_eq m c ⟨n + 1, h⟩ h0 p q, h0, sum_range_one]
    · rw [next_eq m c ⟨n + 1, h⟩ h0 p q]
      show (outsAt0 m c n _).2 (ix2 p q) + _ = _
      rw [scratch_eq c n _ p q]
      have e1 : n % 4 + 1 = (n + 1) % 4 := by omega
      have e2 : n / 16 = (n + 1) / 16 := by omega
      have e3 : n / 4 % 4 = (n + 1) / 4 % 4 := by omega
      rw [e2, e3, e1, sum_range_succ]

/-- At a last step the output block holds the whole inner product plus the bias. -/
theorem out_eq (c : Dev nD) (t : Fin cfg0.N) (h1 : t.val % 4 = 3) (p q : Fin 1024) :
    (outsAt0 m c t.val t.isLt).1 (ix2 p q)
      = (∑ l ∈ range 4, part (X m c) (A m c) (t.val / 16 * 1024 + p.val) (t.val / 4 % 4 * 1024 + q.val) l)
        + at2 (B m c) 0 (t.val / 4 % 4 * 1024 + q.val) := by
  have h0 : ¬t.val % 4 = 0 := by omega
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xb m c t) (ab m c t) (bb m c t) (outsAt0 m c (t.val - 1) (Nat.lt_of_le_of_lt (Nat.sub_le _ _) t.isLt)).2) (ix2 p q)).trans ?_
  refine (Pay.biased_apply _ (bb m c t) p q).trans ?_
  refine (congrArg (· + bb m c t (ix2 (0 : Fin 1) q)) (Pay.step_apply (xb m c t) (ab m c t) _ p q)).trans ?_
  rw [step_part, bb_apply, scratch_eq m c (t.val - 1) _ p q]
  have e1 : (t.val - 1) % 4 + 1 = 3 := by omega
  have e2 : (t.val - 1) / 16 = t.val / 16 := by omega
  have e3 : (t.val - 1) / 4 % 4 = t.val / 4 % 4 := by omega
  rw [e1, e2, e3, h1, sum_range_succ _ 3]

end Cert.KernelIdeal.Acc

end
-- ==== Proof.Final.lean ====
/-
  From the output blocks to the result.

  The output block of the group `(i, j)` is written back once, at the group's last point `t = 16 i + 4 j + 3`, and holds
  at `(p, q)` the whole inner product of row `1024 i + p` of `X` and row `1024 j + q` of `A` plus the bias at
  `1024 j + q`: that is entry `(1024 i + p, 1024 j + q)` of `Y = lin2 X A B`, the linear layer on the flattened input
  (`flushed_eq`; the four parts are the whole inner product by `sum_parts`).  The 16 · 4 output blocks tile the
  `[16384, 4096]` array — entry `(r, o)` lies in the block of `i = r / 1024`, `j = o / 1024` (`cover`) — so after the
  run the array holds `Y` (`final`).

  Around the kernel the program only changes shapes: `X` is the input with its two leading axes flattened, `B` the bias
  as a one-row matrix, and the result is `Y` viewed as `[8, 2048, 4096]`.  Undoing the flattening (`unflat_lin2`) the
  result is the linear layer `lin3` of the three arguments (`result_eq`), which is what the run's final memory holds,
  beside the unchanged arguments (`run`).
-/
import proofs.«143959_j49718541419169_1_alg».proof.Proof.Gen.KernelIdeal.Frame
import proofs.«143959_j49718541419169_1_alg».proof.Proof.Acc
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Acc Cert.Linear Finset

variable (m : (ℓ : Loc nD τ sig) → Buf (Elt Ideal) ℓ) (ρ : Dev nD → PrngReg)

/-- The linear layer on the flattened input: what the kernel's result array ends holding. -/
abbrev Y (c : Dev nD) : SX2.Idx → EReal := lin2 (X m c) (A m c) (B m c)

/-- What a group's last point writes back is that group's block of `Y`. -/
theorem flushed_eq (c : Dev nD) (t : Fin cfg0.N) (hf : (cfg0.win 3).flush t = true) :
    (dats m 0 c).flushed 3 t = ((cfg0.win 3).blk t).view.read (Elt Ideal) (Y m c) := by
  have h1 : t.val % 4 = 3 := (flush0_3 t).mp hf
  have hN : t.val < 256 := lt_of_lt_of_eq t.isLt (show cfg0.N = 256 from N_0)
  obtain ⟨-, -, -, -, -, -, e6, e7⟩ := idx_facts t
  show (cfg0.win 3).cut (grid0.coords t) ((dats m 0 c).after 3 t) = _
  rw [after0_3]
  funext j
  obtain ⟨p, q, rfl⟩ : ∃ p q : Fin 1024, j = ix2 p q := ⟨j 0, j 1, eq_ix2 j⟩
  have hp := p.isLt
  have hq := q.isLt
  have hr : t.val / 16 * 1024 + p.val < 16384 := by omega
  have ho : t.val / 4 % 4 * 1024 + q.val < 4096 := by omega
  have hemb : ((cfg0.win 3).blk t).view.emb (ix2 p q) = (ix2 ⟨t.val / 16 * 1024 + p.val, hr⟩ ⟨t.val / 4 % 4 * 1024 + q.val, ho⟩ : SX2.Idx) := by
    funext a
    apply Fin.ext
    match a with
    | ⟨0, _⟩ => show win0_3.index t (0 : Fin 2) * 1024 + 1 * p.val = t.val / 16 * 1024 + p.val; rw [e6]; omega
    | ⟨1, _⟩ => show win0_3.index t (1 : Fin 2) * 1024 + 1 * q.val = t.val / 4 % 4 * 1024 + q.val; rw [e7]; omega
  show (outsAt0 m c t.val t.isLt).1 (ix2 p q) = Y m c (((cfg0.win 3).blk t).view.emb (ix2 p q))
  rw [hemb, out_eq m c t h1 p q]
  show _ = (∑ k : Fin 4096, X m c (ix2 ⟨t.val / 16 * 1024 + p.val, hr⟩ k) * A m c (ix2 ⟨t.val / 4 % 4 * 1024 + q.val, ho⟩ k))
    + B m c (ix2 (0 : Fin 1) ⟨t.val / 4 % 4 * 1024 + q.val, ho⟩)
  rw [← sum_parts (X m c) (A m c) ⟨_, hr⟩ ⟨_, ho⟩, at2_of_lt (B m c) 0 _ (by decide) ho]
  rfl

/-- An entry lies in point `t`'s output block iff each coordinate lies in the block's 1024 consecutive values. -/
theorem mem_blk (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Every entry of the result array lies in the output block of some group's last point. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hn : (i 0).val / 1024 * 16 + (i 1).val / 1024 * 4 + 3 < cfg0.N := by
    rw [show cfg0.N = 256 from N_0]; omega
  obtain ⟨-, -, -, -, -, -, e6, e7⟩ := idx_facts ⟨_, hn⟩
  refine ⟨⟨_, hn⟩, (flush0_3 _).mpr (by show ((i 0).val / 1024 * 16 + (i 1).val / 1024 * 4 + 3) % 4 = 3; omega), ?_⟩
  rw [mem_blk]
  intro a
  match a with
  | ⟨0, _⟩ =>
    show win0_3.index ⟨_, hn⟩ (0 : Fin 2) * 1024 ≤ (i 0).val ∧ (i 0).val < win0_3.index ⟨_, hn⟩ (0 : Fin 2) * 1024 + 1024
    rw [e6]; dsimp only; omega
  | ⟨1, _⟩ =>
    show win0_3.index ⟨_, hn⟩ (1 : Fin 2) * 1024 ≤ (i 1).val ∧ (i 1).val < win0_3.index ⟨_, hn⟩ (1 : Fin 2) * 1024 + 1024
    rw [e7]; dsimp only; omega

/-- So the result array ends holding `Y`. -/
theorem final (c : Dev nD) : (dats m 0 c).arrAt 3 cfg0.N = Y m c :=
  (dats m 0 c).arrAt_eq_of_cover 3 (Y m c) (flushed_eq m c) cover

/-- The kernel's first operand is the input with its two leading axes flattened. -/
theorem X_eq (c : Dev nD) :
    X m c = shapeCast S16384x4096 (m ((c : Thread nD τ).loc main_arg0)) shapeCasts_S8x2048x4096_S16384x4096 := by
  show StableHlo.after hostOps0 (fun b => m (c, b)) (Proc.devRef .tc main_v0) = _
  after_results
  rfl

/-- Its third operand is the bias as a one-row matrix. -/
theorem B_eq (c : Dev nD) :
    B m c = shapeCast S1x4096 (m ((c : Thread nD τ).loc main_arg2)) shapeCasts_S4096_S1x4096 := by
  show StableHlo.after hostOps0 (fun b => m (c, b)) (Proc.devRef .tc main_v1) = _
  after_results
  rfl

/-- Its second operand is the weight itself. -/
theorem A_eq' (c : Dev nD) : A m c = m ((c : Thread nD τ).loc main_arg1) := V_main_arg1 m c

/-- The program's result, `Y` viewed as `[8, 2048, 4096]`, is the linear layer of the three arguments. -/
theorem result_eq (c : Dev nD) :
    Pipeline.afterTail₀ cfgs (dats m) 0 (V0 m) [hostOps1] c main_v3
      = lin3 (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hY : Pipeline.withArrays (cfgs 0).spec c (V0 m c) (fun w => (dats m 0 c).arrAt w (cfgs 0).N) (Proc.devRef .tc main_v2) = Y m c :=
    (Pipeline.withArrays_arr spec0 launch0.win.arr_inj c _ _ 3).trans (final m c)
  have key : shapeCast S8x2048x4096 (Y m c) shapeCasts_S16384x4096_S8x2048x4096
      = lin3 (m ((c : Thread nD τ).loc main_arg0)) (m ((c : Thread nD τ).loc main_arg1)) (m ((c : Thread nD τ).loc main_arg2)) := by
    show shapeCast SX3 (lin2 (X m c) (A m c) (B m c)) _ = _
    rw [X_eq, B_eq, A_eq']
    exact unflat_lin2 _ _ _ _ _ _
  funext i
  exact (congrFun (congrArg (fun y => shapeCast S8x2048x4096 y shapeCasts_S16384x4096_S8x2048x4096) hY) i).trans (congrFun key i)

/-- Every weakly fair execution of the kernel program ends with the result at the linear layer of the arguments and
    the arguments unchanged. -/
theorem run : θ_run defs (onTc (τ := τ) (main (F := Ideal))) ⟨m, fun _ => 0, ρ⟩ fun r => ∀ c : Dev nD,
      r.2.mem ((c.tc : Thread nD τ).loc main_v3)
        = lin3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((Gen.A_eq m c 1).trans (V_main_arg1 m c))),
       ((h c).2 main_arg2 (Pipeline.mem_restRefs_of main_arg2 (by decide) (by decide))).trans (W_main_arg2 m (dats m) c)⟩)
    (run_main m ρ)

end Cert.KernelIdeal.Final

end
-- ==== Proof.Ref.lean ====
/-
  The reference computes the linear layer directly: a contraction of the input's last axis with the weight's last axis,
  `∑ k, x[β, s, k] · A[o, k]`, then the bias `b[o]` broadcast over the two leading axes and added.  Read entry by entry
  this is `lin3 x A b` on the nose: the contraction pairs `(β, s, k)` of the input with `(o, k)` of the weight, and the two
  broadcasts read the bias at `o`.
-/
import proofs.«143959_j49718541419169_1_alg».proof.Proof.Gen.ReferenceIdeal.Read
import proofs.«143959_j49718541419169_1_alg».proof.Proof.Spec

noncomputable section

open Idealize.ShloMosaic Idealize.ShloMosaic.ValueIdx

namespace Cert.ReferenceIdeal.RefValue

open Cert.ReferenceIdeal Cert.ReferenceIdeal.Read Cert.Linear

/-- The reference's result, as a function of its three arguments, is the linear layer. -/
theorem ref_eq (x : SX3.Idx → EReal) (A : SA.Idx → EReal) (b : SB1.Idx → EReal) :
    val_main_v3 (F := Ideal) x A b = lin3 x A b := by
  funext i
  obtain ⟨β, s, o, rfl⟩ : ∃ (β : Fin 8) (s : Fin 2048) (o : Fin 4096), i = ix3 β s o := ⟨i 0, i 1, i 2, eq_ix3 i⟩
  have el : ∀ k : Fin 4096, lidx_main_v0 (ix3 β s o) k = ix3 β s k := fun k =>
    funext fun a => Fin.ext (by match a with | ⟨0, _⟩ => rfl | ⟨1, _⟩ => rfl | ⟨2, _⟩ => rfl)
  have er : ∀ k : Fin 4096, ridx_main_v0 (ix3 β s o) k = ix2 o k := fun k =>
    funext fun a => Fin.ext (by match a with | ⟨0, _⟩ => rfl | ⟨1, _⟩ => rfl)
  have eb : idx_main_v1 (idx_main_v2 (ix3 β s o)) = ix1 o :=
    funext fun a => Fin.ext (by match a with | ⟨0, _⟩ => rfl)
  rw [val_main_v3_apply, val_main_v0_apply, val_main_v2_apply, val_main_v1_apply, eb]
  simp only [el, er]
  rfl

end Cert.ReferenceIdeal.RefValue

end
-- ==== Proof.lean ====
/-
  A linear layer `y = x · Aᵀ + b` (`x : [8, 2048, 4096]`, `A : [4096, 4096]`, `b : [4096]`), computed by a blocked
  matrix product on a 16 × 4 × 4 grid with a running accumulator over the last grid axis, against the same layer
  written as one contraction plus a broadcast bias.

  Over the extended reals both programs end with, at `(β, s, o)`,

      (∑ k < 4096, x[β, s, k] · A[o, k]) + b[o].

  The reference computes exactly this (Proof/Ref.lean).  The kernel computes the inner product in four runs of 1024
  columns, adding the runs' partial inner products one after the other into an accumulator that starts at zero, and
  adds the bias after the fourth (Proof/Pieces.lean, Proof/Pay.lean, Proof/Acc.lean); its 64 output blocks tile the result
  (Proof/Final.lean).  The two agree because a sum over `4 · 1024` indices is the sum of its four blocks' sums
  (Proof/Spec.lean, Proof/LibBlockSum.lean) — a regrouping that uses only associativity and commutativity of addition, so it
  holds at infinite entries too and the finiteness of the inputs is never used.  The casts to bf16 in front of the
  matrix unit are the identity in exact arithmetic, and nothing else of the kernel was rewritten to idealize it, so
  there is nothing to show for the idealization itself.

  The three programs terminate without fault and leave their arguments unchanged: for the two kernel programs this is the
  generated frame; for the reference it is its generated run with the result dropped.
-/
import proofs.«143959_j49718541419169_1_alg».proof.Defs
import proofs.«143959_j49718541419169_1_alg».proof.Proof.Gen.Kernel
import proofs.«143959_j49718541419169_1_alg».proof.Proof.Gen.Kernel.Skeleton
import proofs.«143959_j49718541419169_1_alg».proof.Proof.Gen.Kernel.Launch
import proofs.«143959_j49718541419169_1_alg».proof.Proof.Gen.Kernel.Points
import proofs.«143959_j49718541419169_1_alg».proof.Proof.Gen.Kernel.Frame
import proofs.«143959_j49718541419169_1_alg».proof.Proof.Gen.KernelIdeal
import proofs.«143959_j49718541419169_1_alg».proof.Proof.Gen.KernelIdeal.Skeleton
import proofs.«143959_j49718541419169_1_alg».proof.Proof.Gen.KernelIdeal.Launch
import proofs.«143959_j49718541419169_1_alg».proof.Proof.Gen.KernelIdeal.Points
import proofs.«143959_j49718541419169_1_alg».proof.Proof.Gen.KernelIdeal.Frame
import proofs.«143959_j49718541419169_1_alg».proof.Proof.Gen.ReferenceIdeal
import proofs.«143959_j49718541419169_1_alg».proof.Proof.Gen.ReferenceIdeal.Run
import proofs.«143959_j49718541419169_1_alg».proof.Proof.Gen.ReferenceIdeal.Read
import proofs.«143959_j49718541419169_1_alg».proof.Proof.Gen.Pre_finite_inputs
import proofs.«143959_j49718541419169_1_alg».proof.Proof.Final
import proofs.«143959_j49718541419169_1_alg».proof.Proof.Ref
import Idealize.ShloMosaic.Adequacy
import Idealize.ShloMosaic.Init

noncomputable section

namespace Cert.Proof

open Idealize.ShloMosaic Idealize.SL.Sem

/-- The kernel as printed terminates without fault and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result is the linear layer of its arguments (`Final.run`), and so is the
    reference's (`RefValue.ref_eq`) of arguments that agree with the kernel's. -/
theorem algebraic : Cert.algebraic_KernelIdeal_ReferenceIdeal := by
  intro m ρ m' ρ' _ hagree
  refine ⟨fun c => Cert.Linear.lin3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
